-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S64x64 : Shape := ⟨2, ![64, 64]⟩
abbrev S50000 : Shape := ⟨1, ![50000]⟩
abbrev S192x64 : Shape := ⟨2, ![192, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S192x64 .f32) (main_arg10 : FVec F S64 .f32) (main_arg11 : FVec F S64x64 .f32) (main_arg12 : FVec F S64 .f32) (main_v33 : IVec S_ 1) : IVec S_ 1 :=
  let main_v34 : FVec F S192x64 .f32 := Host.absf main_arg9
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S192x64 .f32) (main_arg10 : FVec F S64 .f32) (main_arg11 : FVec F S64x64 .f32) (main_arg12 : FVec F S64 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : FVec F S800000x64 .f32) (main_arg3 : FVec F S64x64 .f32) (main_arg4 : IVec S50000 32) (main_arg5 : FVec F S192x64 .f32) (main_arg6 : FVec F S64 .f32) (main_arg7 : FVec F S64x64 .f32) (main_arg8 : FVec F S64 .f32) (main_arg9 : FVec F S192x64 .f32) (main_arg10 : FVec F S64 .f32) (main_arg11 : FVec F S64x64 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S192x64 .f32 := Host.absf main_arg5
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S64x64 : Shape := ⟨2, ![64, 64]⟩
abbrev S50000 : Shape := ⟨1, ![50000]⟩
abbrev S192x64 : Shape := ⟨2, ![192, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x192 : Shape := ⟨2, ![800000, 192]⟩
abbrev S1x64 : Shape := ⟨2, ![1, 64]⟩
abbrev S20000x192 : Shape := ⟨2, ![20000, 192]⟩
abbrev S20000x64 : Shape := ⟨2, ![20000, 64]⟩
abbrev S50000x64 : Shape := ⟨2, ![50000, 64]⟩
abbrev S50000x192 : Shape := ⟨2, ![50000, 192]⟩
abbrev S10000x192 : Shape := ⟨2, ![10000, 192]⟩
abbrev S10000x64 : Shape := ⟨2, ![10000, 64]⟩

abbrev nBuf : Space → Nat
  | .hbm => 38
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S64x64, .f32⟩
  | .hbm, ⟨4, _⟩ => ⟨S50000, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S800000x192, .f32⟩
  | .hbm, ⟨27, _⟩ => ⟨S1x64, .f32⟩
  | .hbm, ⟨28, _⟩ => ⟨S1x64, .f32⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S50000x192, .f32⟩
  | .hbm, ⟨35, _⟩ => ⟨S1x64, .f32⟩
  | .hbm, ⟨36, _⟩ => ⟨S1x64, .f32⟩
  | .hbm, ⟨37, _⟩ => ⟨S50000x64, .f32⟩
  | .local _ .vmem, ⟨0, _⟩ => ⟨S20000x192, .f32⟩
  | .local _ .vmem, ⟨1, _⟩ => ⟨S20000x192, .f32⟩
  | .local _ .vmem, ⟨2, _⟩ => ⟨S192x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S20000x64, .f32⟩
  | .local _ .vmem, ⟨7, _⟩ => ⟨S20000x64, .f32⟩
  | .local _ .vmem, ⟨8, _⟩ => ⟨S10000x192, .f32⟩
  | .local _ .vmem, ⟨9, _⟩ => ⟨S10000x192, .f32⟩
  | .local _ .vmem, ⟨10, _⟩ => ⟨S192x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x64_S800000x192_d1 : Shape.Concatenates [S800000x128, S800000x64] S800000x192 1
  shapeCasts_S64_S1x64 : S64.ShapeCasts S1x64
  inb_S20000x192_S20000x192_0_0 : ∀ a, (![0, 0] : Fin 2 → Nat) a + S20000x192.size a ≤ S20000x192.size a
  h_S20000x192 : 0 < S20000x192.numel
  shapeCasts_S20000x192_S20000x192 : S20000x192.ShapeCasts S20000x192
  bitsLt_bf16_f32 : FTy.bits .bf16 < FTy.bits .f32
  inb_S192x64_S192x64_0_0 : ∀ a, (![0, 0] : Fin 2 → Nat) a + S192x64.size a ≤ S192x64.size a
  h_S192x64 : 0 < S192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S64x64_S64x64_0_0 : ∀ a, (![0, 0] : Fin 2 → Nat) a + S64x64.size a ≤ S64x64.size a
  h_S64x64 : 0 < S64x64.numel
  inb_S20000x64_S20000x64_0_0 : ∀ a, (![0, 0] : Fin 2 → Nat) a + S20000x64.size a ≤ S20000x64.size a
  h_S20000x64 : 0 < S20000x64.numel
  bcast_S_S50000x64 : S_.BroadcastsInDim S50000x64 (![] : Fin 0 → Fin S50000x64.rank)
  concatenates_S50000x128_S50000x64_S50000x192_d1 : Shape.Concatenates [S50000x128, S50000x64] S50000x192 1
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  gather_S50000x128_S800000x1_S800000x128_1_0_n_n_0_1_1128_wf : GatherDims.WF S50000x128 S800000x1 S800000x128 [1] [0] [] [0] [] 1 ![1, 128]
  dot_S20000x192_S192x64_S20000x64_1_0_0_1_n_n_wf : DotDims.WF S20000x192 S192x64 S20000x64 [1] [0] [0] [1] [] []
  dot_S20000x64_S64x64_S20000x64_1_0_0_1_n_n_wf : DotDims.WF S20000x64 S64x64 S20000x64 [1] [0] [0] [1] [] []
  scatter_S50000x64_S800000x1_S800000x64_1_0_0_1_wf : ScatterDims.WF S50000x64 S800000x1 S800000x64 [1] [0] [0] 1
  dot_S10000x192_S192x64_S10000x64_1_0_0_1_n_n_wf : DotDims.WF S10000x192 S192x64 S10000x64 [1] [0] [0] [1] [] []
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x192.size a ≤ S800000x192.size a
  hwx0_0 : ∀ i : grid0.Coords, EltTy.bits .f32 = 32 ∨ (Rect.block (s := S800000x192) S20000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x64.size a ≤ S192x64.size a
  hwx0_1 : ∀ i : grid0.Coords, EltTy.bits .f32 = 32 ∨ (Rect.block (s := S192x64) S192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S20000x64.size a ≤ S800000x64.size a
  hwx0_5 : ∀ i : grid0.Coords, EltTy.bits .f32 = 32 ∨ (Rect.block (s := S800000x64) S20000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x192.size a ≤ S50000x192.size a
  hwx1_0 : ∀ i : grid1.Coords, EltTy.bits .f32 = 32 ∨ (Rect.block (s := S50000x192) S10000x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S192x64.size a ≤ S192x64.size a
  hwx1_1 : ∀ i : grid1.Coords, EltTy.bits .f32 = 32 ∨ (Rect.block (s := S192x64) S192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S20000x192_S192x64_S20000x64_1_0_0_1_n_n : DotDims S20000x192 S192x64 S20000x64 where
  lhsContracting := [1]
  rhsContracting := [0]
  lhsNonContracting := [0]
  rhsNonContracting := [1]
  lhsBatch := []
  rhsBatch := []
  wf := dot_S20000x192_S192x64_S20000x64_1_0_0_1_n_n_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x192_S192x64_S10000x64_1_0_0_1_n_n : DotDims S10000x192 S192x64 S10000x64 where
  lhsContracting := [1]
  rhsContracting := [0]
  lhsNonContracting := [0]
  rhsNonContracting := [1]
  lhsBatch := []
  rhsBatch := []
  wf := dot_S10000x192_S192x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v11) S20000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S20000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18) S10000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S64x64 : Shape := ⟨2, ![64, 64]⟩
abbrev S50000 : Shape := ⟨1, ![50000]⟩
abbrev S192x64 : Shape := ⟨2, ![192, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x192 : Shape := ⟨2, ![800000, 192]⟩
abbrev S1x64 : Shape := ⟨2, ![1, 64]⟩
abbrev S50000x64 : Shape := ⟨2, ![50000, 64]⟩
abbrev S50000x192 : Shape := ⟨2, ![50000, 192]⟩

abbrev nBuf : Space → Nat
  | .hbm => 60
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S64x64, .f32⟩
  | .hbm, ⟨4, _⟩ => ⟨S50000, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S800000x192, .f32⟩
  | .hbm, ⟨27, _⟩ => ⟨S800000x64, .f32⟩
  | .hbm, ⟨28, _⟩ => ⟨S1x64, .f32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S1x64, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S50000x64, .f32⟩
  | .hbm, ⟨43, _⟩ => ⟨S800000x1, .i32⟩
  | .hbm, ⟨44, _⟩ => ⟨S50000x64, .f32⟩
  | .hbm, ⟨45, _⟩ => ⟨S50000x192, .f32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S_, .f32⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S1x64, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S50000x64, .f32⟩
  | .hbm, ⟨59, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_cst : Ref sig .tc := ⟨.hbm, 38, rfl⟩
abbrev main_call1_v0 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call2_cst : Ref sig .tc := ⟨.hbm, 50, rfl⟩
abbrev main_call2_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call3_cst : Ref sig .tc := ⟨.hbm, 57, rfl⟩
abbrev main_call3_v0 : Ref sig .tc := ⟨.hbm, 58, rfl⟩
abbrev main_v35 : Ref sig .tc := ⟨.hbm, 59, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x64_S800000x192_d1 : Shape.Concatenates [S800000x128, S800000x64] S800000x192 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  concatenates_S50000x128_S50000x64_S50000x192_d1 : Shape.Concatenates [S50000x128, S50000x64] S50000x192 1
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  dot_S800000x192_S192x64_S800000x64_1_0_0_1_n_n_wf : DotDims.WF S800000x192 S192x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x192_S192x64_S50000x64_1_0_0_1_n_n_wf : DotDims.WF S50000x192 S192x64 S50000x64 [1] [0] [0] [1] [] []
  dot_S50000x64_S64x64_S50000x64_1_0_0_1_n_n_wf : DotDims.WF S50000x64 S64x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.MlpRow.lean ====
import proofs.«169572_j48928267436353_1_alg».proof.Proof.LibPlainDot
import Idealize.ShloMosaic.Lib.Pipeline.Value
import Idealize.ShloMosaic.Lib.ValueIdx
import Idealize.ShloMosaic.PureOps.Ideal.Laws

/-!
  One row of a two-layer perceptron with rectified layers. For a row x of 192 entries, weights W1 of shape [192, 64] and
  W2 of shape [64, 64] and bias rows b1, b2 of 64 entries, the row's output at column q is

    max (Σ_k max (Σ_j x_j · W1(j, k) + b1_k) 0 · W2(k, q) + b2_q) 0

  over the extended reals. Every entry of the result depends on one row of the left operand only, so the same function
  describes a whole array of M rows and any block of its rows. Two readings are proved, for any number of rows: the
  host's composition (two plain matrix products, the biases broadcast along the rows, the maximum against a broadcast zero)
  and the kernel body's (two matrix products into a zero accumulator, changes of float format that are the identity on
  the extended reals, the bias row broadcast, the maximum against a splat zero) both read this row function at every entry.
-/

open scoped BigOperators

noncomputable section

namespace Cert.Mlp

open Idealize.ShloMosaic Idealize.ShloMosaic.ValueIdx

/-- The zero word of the 32-bit format at the ideal values. -/
abbrev z32 : EReal := Ideal.ofBits .f32 0x00000000#32

/-- The output of one row at column q. -/
def row (x : Fin 192 → EReal) (W1 : (⟨2, ![192, 64]⟩ : Shape).Idx → EReal) (b1 : Fin 64 → EReal)
    (W2 : (⟨2, ![64, 64]⟩ : Shape).Idx → EReal) (b2 : Fin 64 → EReal) (q : Fin 64) : EReal :=
  max ((∑ k : Fin 64, max ((∑ j : Fin 192, x j * W1 (ix2 j k)) + b1 k) z32 * W2 (ix2 k q)) + b2 q) z32

/-- The row function depends on its arguments entry by entry. -/
theorem row_congr {x x' : Fin 192 → EReal} {W1 W1' : (⟨2, ![192, 64]⟩ : Shape).Idx → EReal} {b1 b1' : Fin 64 → EReal}
    {W2 W2' : (⟨2, ![64, 64]⟩ : Shape).Idx → EReal} {b2 b2' : Fin 64 → EReal} {q q' : Fin 64}
    (hx : ∀ j, x j = x' j) (hW1 : ∀ i, W1 i = W1' i) (hb1 : ∀ k, b1 k = b1' k) (hW2 : ∀ i, W2 i = W2' i)
    (hb2 : ∀ k, b2 k = b2' k) (hq : q = q') : row x W1 b1 W2 b2 q = row x' W1' b1' W2' b2' q' := by
  obtain rfl : x = x' := funext hx
  obtain rfl : W1 = W1' := funext hW1
  obtain rfl : b1 = b1' := funext hb1
  obtain rfl : W2 = W2' := funext hW2
  obtain rfl : b2 = b2' := funext hb2
  subst hq
  rfl

section Host

variable {M : Nat}
  (d1 : DotDims ⟨2, ![M, 192]⟩ ⟨2, ![192, 64]⟩ ⟨2, ![M, 64]⟩)
  (d2 : DotDims ⟨2, ![M, 64]⟩ ⟨2, ![64, 64]⟩ ⟨2, ![M, 64]⟩)
  (hb1 : (⟨1, ![64]⟩ : Shape).BroadcastsInDim ⟨2, ![1, 64]⟩ (![1] : Fin 1 → Fin (⟨2, ![1, 64]⟩ : Shape).rank))
  (hbM : (⟨2, ![1, 64]⟩ : Shape).BroadcastsInDim ⟨2, ![M, 64]⟩ (![0, 1] : Fin 2 → Fin (⟨2, ![M, 64]⟩ : Shape).rank))
  (hb0 : (⟨0, ![]⟩ : Shape).BroadcastsInDim ⟨2, ![M, 64]⟩ (![] : Fin 0 → Fin (⟨2, ![M, 64]⟩ : Shape).rank))

/-- The host's two-layer composition on an array of M rows. -/
def host (h : FVec Ideal ⟨2, ![M, 192]⟩ .f32) (W1 : FVec Ideal ⟨2, ![192, 64]⟩ .f32) (b1 : FVec Ideal ⟨1, ![64]⟩ .f32)
    (W2 : FVec Ideal ⟨2, ![64, 64]⟩ .f32) (b2 : FVec Ideal ⟨1, ![64]⟩ .f32) : FVec Ideal ⟨2, ![M, 64]⟩ .f32 :=
  maximumf (addf (Host.dotGeneral d2 none
      (maximumf (addf (Host.dotGeneral d1 none h W1)
          (broadcastInDim ⟨2, ![M, 64]⟩ ![0, 1] hbM (broadcastInDim ⟨2, ![1, 64]⟩ ![1] hb1 b1)))
        (broadcastInDim ⟨2, ![M, 64]⟩ ![] hb0 (constant ⟨0, ![]⟩ .f32 0x00000000#32))) W2)
      (broadcastInDim ⟨2, ![M, 64]⟩ ![0, 1] hbM (broadcastInDim ⟨2, ![1, 64]⟩ ![1] hb1 b2)))
    (broadcastInDim ⟨2, ![M, 64]⟩ ![] hb0 (constant ⟨0, ![]⟩ .f32 0x00000000#32))

/-- A bias of 64 entries, made a row and broadcast along M rows, read at (p, k) is its entry k. -/
theorem bias_apply (b : FVec Ideal ⟨1, ![64]⟩ .f32) (p : Fin M) (k : Fin 64) :
    broadcastInDim ⟨2, ![M, 64]⟩ ![0, 1] hbM (broadcastInDim ⟨2, ![1, 64]⟩ ![1] hb1 b) (ix2 p k) = b (ix1 k) := by
  rw [broadcastInDim_apply _ hbM _ (ix2 p k) (ix2 (0 : Fin 1) k) (fun a => match a with
    | ⟨0, _⟩ => by show 0 = if (1 : Nat) = 1 then 0 else p.val; rw [if_pos rfl]
    | ⟨1, _⟩ => by show k.val = if (64 : Nat) = 1 then 0 else k.val; rw [if_neg (by decide)])]
  exact broadcastInDim_apply _ hb1 b (ix2 (0 : Fin 1) k) (ix1 k) (fun a => match a with
    | ⟨0, _⟩ => by show k.val = if (64 : Nat) = 1 then 0 else k.val; rw [if_neg (by decide)])

/-- The broadcast zero scalar read at any entry is the zero word's value. -/
theorem zero_apply (p : Fin M) (k : Fin 64) :
    broadcastInDim ⟨2, ![M, 64]⟩ ![] hb0 (constant (F := Ideal) ⟨0, ![]⟩ .f32 0x00000000#32) (ix2 p k) = z32 :=
  broadcastInDim_apply _ hb0 _ (ix2 p k) ix0 (fun a => a.elim0)

/-- The host's composition read at entry (p, q) is the row function of row p of the left operand. -/
theorem host_apply
    (hlc1 : d1.lhsContracting = [1]) (hrc1 : d1.rhsContracting = [0]) (hln1 : d1.lhsNonContracting = [0])
    (hrn1 : d1.rhsNonContracting = [1]) (hlb1 : d1.lhsBatch = []) (hrb1 : d1.rhsBatch = [])
    (hlc2 : d2.lhsContracting = [1]) (hrc2 : d2.rhsContracting = [0]) (hln2 : d2.lhsNonContracting = [0])
    (hrn2 : d2.rhsNonContracting = [1]) (hlb2 : d2.lhsBatch = []) (hrb2 : d2.rhsBatch = [])
    (h : FVec Ideal ⟨2, ![M, 192]⟩ .f32) (W1 : FVec Ideal ⟨2, ![192, 64]⟩ .f32) (b1 : FVec Ideal ⟨1, ![64]⟩ .f32)
    (W2 : FVec Ideal ⟨2, ![64, 64]⟩ .f32) (b2 : FVec Ideal ⟨1, ![64]⟩ .f32) (p : Fin M) (q : Fin 64) :
    host d1 d2 hb1 hbM hb0 h W1 b1 W2 b2 (ix2 p q)
      = row (fun j => h (ix2 p j)) W1 (fun k => b1 (ix1 k)) W2 (fun k => b2 (ix1 k)) q := by
  unfold host row
  rw [maximumf_apply, addf_apply, bias_apply, zero_apply]
  unfold Host.dotGeneral
  rw [Cert.Lib.PlainDot.dotGeneral_apply d2 hlc2 hrc2 hln2 hrn2 hlb2 hrb2]
  refine congrArg (fun s => max (s + b2 (ix1 q)) z32) (Finset.sum_congr rfl fun k _ => ?_)
  rw [maximumf_apply, addf_apply, bias_apply, zero_apply,
    Cert.Lib.PlainDot.dotGeneral_apply d1 hlc1 hrc1 hln1 hrn1 hlb1 hrb1]

end Host

section Body

variable {R : Nat}
  (e1 : DotDims ⟨2, ![R, 192]⟩ ⟨2, ![192, 64]⟩ ⟨2, ![R, 64]⟩)
  (e2 : DotDims ⟨2, ![R, 64]⟩ ⟨2, ![64, 64]⟩ ⟨2, ![R, 64]⟩)
  (hsc : (⟨2, ![R, 192]⟩ : Shape).ShapeCasts ⟨2, ![R, 192]⟩)
  (hsb : (⟨2, ![1, 64]⟩ : Shape).ShapeCasts ⟨2, ![1, 64]⟩)
  (hbr : (⟨2, ![1, 64]⟩ : Shape).Broadcasts ⟨2, ![R, 64]⟩)
  (hlt : FTy.bits .bf16 < FTy.bits .f32)

/-- The kernel body's result on a block of R rows: both matrix products go into a zero accumulator, their operands
    pass through a narrower float format, each bias is a row broadcast along the block, and each layer ends in the maximum
    against a splat zero. -/
def body (x0 : FVec Ideal ⟨2, ![R, 192]⟩ .f32) (x1 : FVec Ideal ⟨2, ![192, 64]⟩ .f32) (x2 : FVec Ideal ⟨2, ![1, 64]⟩ .f32)
    (x3 : FVec Ideal ⟨2, ![64, 64]⟩ .f32) (x4 : FVec Ideal ⟨2, ![1, 64]⟩ .f32) : FVec Ideal ⟨2, ![R, 64]⟩ .f32 :=
  maximumf (addf (matmul e2 none
      (truncf .bf16 (maximumf (addf (matmul e1 none (truncf .bf16 (shapeCast ⟨2, ![R, 192]⟩ x0 hsc) hlt) (truncf .bf16 x1 hlt)
            (constant ⟨2, ![R, 64]⟩ .f32 0x00000000#32))
          (broadcastTo ⟨2, ![R, 64]⟩ (shapeCast ⟨2, ![1, 64]⟩ x2 hsb) hbr))
        (broadcast ⟨2, ![R, 64]⟩ (Scalar.ofBits .f32 0x00000000#32))) hlt)
      (truncf .bf16 x3 hlt) (constant ⟨2, ![R, 64]⟩ .f32 0x00000000#32))
      (broadcastTo ⟨2, ![R, 64]⟩ (shapeCast ⟨2, ![1, 64]⟩ x4 hsb) hbr))
    (broadcast ⟨2, ![R, 64]⟩ (Scalar.ofBits .f32 0x00000000#32))

/-- A bias row broadcast along a block of R rows, read at (p, k), is the row's entry k. -/
theorem bias_row_apply (x : FVec Ideal ⟨2, ![1, 64]⟩ .f32) (p : Fin R) (k : Fin 64) :
    broadcastTo ⟨2, ![R, 64]⟩ (shapeCast ⟨2, ![1, 64]⟩ x hsb) hbr (ix2 p k) = x (ix2 (0 : Fin 1) k) := by
  rw [shapeCast_self]
  exact broadcastTo_apply x hbr (ix2 p k) (ix2 (0 : Fin 1) k) (fun a => match a with
    | ⟨0, _⟩ => by show 0 = if (1 : Nat) = 1 then 0 else _; rw [if_pos rfl]
    | ⟨1, _⟩ => by show k.val = if (64 : Nat) = 1 then 0 else _; rw [if_neg (by decide)]; rfl)

/-- The kernel body's result read at entry (p, q) of the block is the row function of row p of the block. -/
theorem body_apply
    (hlc1 : e1.lhsContracting = [1]) (hrc1 : e1.rhsContracting = [0]) (hln1 : e1.lhsNonContracting = [0])
    (hrn1 : e1.rhsNonContracting = [1]) (hlb1 : e1.lhsBatch = []) (hrb1 : e1.rhsBatch = [])
    (hlc2 : e2.lhsContracting = [1]) (hrc2 : e2.rhsContracting = [0]) (hln2 : e2.lhsNonContracting = [0])
    (hrn2 : e2.rhsNonContracting = [1]) (hlb2 : e2.lhsBatch = []) (hrb2 : e2.rhsBatch = [])
    (x0 : FVec Ideal ⟨2, ![R, 192]⟩ .f32) (x1 : FVec Ideal ⟨2, ![192, 64]⟩ .f32) (x2 : FVec Ideal ⟨2, ![1, 64]⟩ .f32)
    (x3 : FVec Ideal ⟨2, ![64, 64]⟩ .f32) (x4 : FVec Ideal ⟨2, ![1, 64]⟩ .f32) (p : Fin R) (q : Fin 64) :
    body e1 e2 hsc hsb hbr hlt x0 x1 x2 x3 x4 (ix2 p q)
      = row (fun j => x0 (ix2 p j)) x1 (fun k => x2 (ix2 (0 : Fin 1) k)) x3 (fun k => x4 (ix2 (0 : Fin 1) k)) q := by
  unfold body row matmul
  rw [maximumf_apply, addf_apply, bias_row_apply, broadcast_apply,
    Cert.Lib.PlainDot.matmul_zero_apply e2 hlc2 hrc2 hln2 hrn2 hlb2 hrb2]
  refine congrArg (fun s => max (s + x4 (ix2 (0 : Fin 1) q)) z32) (Finset.sum_congr rfl fun k _ => ?_)
  rw [truncf_apply, truncf_apply, maximumf_apply, addf_apply, bias_row_apply, broadcast_apply,
    Cert.Lib.PlainDot.matmul_zero_apply e1 hlc1 hrc1 hln1 hrn1 hlb1 hrb1]
  refine congrArg (fun s => max (s + x2 (ix2 (0 : Fin 1) k)) z32 * x3 (ix2 k q)) (Finset.sum_congr rfl fun j _ => ?_)
  rw [truncf_apply, truncf_apply, shapeCast_self]

end Body

end Cert.Mlp

end
-- ==== Proof.EdgeValue.lean ====
import proofs.«169572_j48928267436353_1_alg».proof.Proof.Gen.KernelIdeal.Frame
import proofs.«169572_j48928267436353_1_alg».proof.Proof.MlpRow
import Idealize.ShloMosaic.Lib.Pipeline.Value

/-!
  The edge perceptron's launch: what its output array holds after the launch, as one function of the arrays the launch
  finds. The grid has 40 points; point t reads rows 20000·t … 20000·t + 19999 of the [800000, 192] input and writes the
  same rows of the [800000, 64] output, and reads both weight matrices and both bias rows whole. The body's result at
  an entry of the block depends on one row of the input block only, so block t of the output is block t of the array
  whose entry (r, q) is the row function of row r of the input. The 40 blocks tile the output, so after the launch it
  is that array.
-/

set_option maxRecDepth 16384

noncomputable section

namespace Cert.KernelIdeal.Edge

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The array of 800000 rows whose entry (r, q) is the row function of row r of `h`, the biases given as rows. -/
def whole (h : S800000x192.Idx → EReal) (W1 : S192x64.Idx → EReal) (b1 : S1x64.Idx → EReal)
    (W2 : S64x64.Idx → EReal) (b2 : S1x64.Idx → EReal) : S800000x64.Idx → EReal :=
  fun i => Cert.Mlp.row (fun j => h (ix2 (i 0 : Fin 800000) j)) W1 (fun k => b1 (ix2 (0 : Fin 1) k)) W2
    (fun k => b2 (ix2 (0 : Fin 1) k)) (i 1 : Fin 64)

/-- The block indices at point t: the input and the output move with t along the rows, every other window stays at
    block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The body's result on a block, read at an entry, is the row function of that entry's row of the input block. -/
theorem pay_apply (x0 : Vec Ideal S20000x192 .f32) (x1 : Vec Ideal S192x64 .f32) (x2 : Vec Ideal S1x64 .f32)
    (x3 : Vec Ideal S64x64 .f32) (x4 : Vec Ideal S1x64 .f32) (y : S20000x64.Idx) :
    k0_pay1 x0 x1 x2 x3 x4 y
      = Cert.Mlp.row (fun j => x0 (ix2 (y 0 : Fin 20000) j)) x1 (fun k => x2 (ix2 (0 : Fin 1) k)) x3
          (fun k => x4 (ix2 (0 : Fin 1) k)) (y 1 : Fin 64) := by
  obtain ⟨p, q, rfl⟩ : ∃ (p : Fin 20000) (q : Fin 64), y = ix2 p q := ⟨y 0, y 1, eq_ix2 y⟩
  exact Cert.Mlp.body_apply (R := 20000) dot_S20000x192_S192x64_S20000x64_1_0_0_1_n_n dot_S20000x64_S64x64_S20000x64_1_0_0_1_n_n
    shapeCasts_S20000x192_S20000x192 shapeCasts_S1x64_S1x64 broadcasts_S1x64_S20000x64 bitsLt_bf16_f32
    rfl rfl rfl rfl rfl rfl rfl rfl rfl rfl rfl rfl x0 x1 x2 x3 x4 p q

/-- What point t writes back is block t of `whole` of the arrays the launch finds: the input block's row p is row
    20000·t + p of the input array, which is the row of the output entry; the weights and biases are read whole. -/
theorem flushed_eq (c : Dev nD) (t : Fin cfg0.N) :
    (dat0 V c).flushed 5 t = ((cfg0.win 5).blk t).view.read (Elt Ideal)
      (whole (V c main_v11) (V c main_arg5) (V c main_v12) (V c main_arg7) (V c main_v13)) := by
  show (cfg0.win 5).cut (grid0.coords t) ((dat0 V c).after 5 t) = _
  rw [after0_5]
  unfold out0_5
  rw [View.canon_unit_zero hz]
  simp only [View.ld_unit_zero (S := S20000x192) hz, View.ld_unit_zero (S := S192x64) hz,
    View.ld_unit_zero (S := S1x64) hz, View.ld_unit_zero (S := S64x64) hz]
  funext y
  show k0_pay1 (iblk0 V c 0 t) (iblk0 V c 1 t) (iblk0 V c 2 t) (iblk0 V c 3 t) (iblk0 V c 4 t) y
    = whole (V c main_v11) (V c main_arg5) (V c main_v12) (V c main_arg7) (V c main_v13) (((cfg0.win 5).blk t).view.emb y)
  refine (pay_apply (iblk0 V c 0 t) (iblk0 V c 1 t) (iblk0 V c 2 t) (iblk0 V c 3 t) (iblk0 V c 4 t) y).trans ?_
  obtain ⟨e00, e01, e10, e11, e20, e21, e30, e31, e40, e41, e50, e51⟩ := idx_facts t
  unfold whole
  refine Cert.Mlp.row_congr (fun j => ?_) (fun i => ?_) (fun k => ?_) (fun i => ?_) (fun k => ?_) ?_
  · show V c main_v11 (((cfg0.win 0).blk t).view.emb (ix2 (y 0 : Fin 20000) j))
      = V c main_v11 (ix2 (((cfg0.win 5).blk t).view.emb y 0 : Fin 800000) j)
    refine congrArg _ (funext fun a => Fin.ext ?_)
    match a with
    | ⟨0, _⟩ => show win0_0.index t (0 : Fin 2) * 20000 + 1 * (y 0).val = win0_5.index t (0 : Fin 2) * 20000 + 1 * (y 0).val; omega
    | ⟨1, _⟩ => show win0_0.index t (1 : Fin 2) * 192 + 1 * j.val = j.val; omega
  · show V c main_arg5 (((cfg0.win 1).blk t).view.emb i) = V c main_arg5 i
    refine congrArg _ (funext fun a => Fin.ext ?_)
    match a with
    | ⟨0, _⟩ => show win0_1.index t (0 : Fin 2) * 192 + 1 * (i 0).val = (i 0).val; omega
    | ⟨1, _⟩ => show win0_1.index t (1 : Fin 2) * 64 + 1 * (i 1).val = (i 1).val; omega
  · show V c main_v12 (((cfg0.win 2).blk t).view.emb (ix2 (0 : Fin 1) k)) = V c main_v12 (ix2 (0 : Fin 1) k)
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * k.val = k.val; omega
  · show V c main_arg7 (((cfg0.win 3).blk t).view.emb i) = V c main_arg7 i
    refine congrArg _ (funext fun a => Fin.ext ?_)
    match a with
    | ⟨0, _⟩ => show win0_3.index t (0 : Fin 2) * 64 + 1 * (i 0).val = (i 0).val; omega
    | ⟨1, _⟩ => show win0_3.index t (1 : Fin 2) * 64 + 1 * (i 1).val = (i 1).val; omega
  · show V c main_v13 (((cfg0.win 4).blk t).view.emb (ix2 (0 : Fin 1) k)) = V c main_v13 (ix2 (0 : Fin 1) k)
    refine congrArg _ (funext fun a => Fin.ext ?_)
    match a with
    | ⟨0, _⟩ => show win0_4.index t (0 : Fin 2) * 1 + 1 * 0 = 0; omega
    | ⟨1, _⟩ => show win0_4.index t (1 : Fin 2) * 64 + 1 * k.val = k.val; omega
  · apply Fin.ext
    show (y 1).val = win0_5.index t (1 : Fin 2) * 64 + 1 * (y 1).val
    omega

/-- An index of the output array is in point t's block iff each coordinate is in the block's range on its axis. -/
theorem mem_blk (t : Fin cfg0.N) (i : S800000x64.Idx) :
    i ∈ ((cfg0.win 5).blk t).view.set ↔ ∀ a : Fin 2, win0_5.index t a * S20000x64.size a ≤ (i a).val
      ∧ (i a).val < win0_5.index t a * S20000x64.size a + S20000x64.size a := by
  show i ∈ ((View.whole main_v14).slice (win0_5.rect t)).set ↔ _
  rw [View.set_slice_whole, Rect.mem_set_unit]
  exact Iff.rfl

/-- Row r of the output is in the block of point r / 20000. -/
theorem cover (i : S800000x64.Idx) :
    ∃ t : Fin cfg0.N, (cfg0.win 5).flush t = true ∧ i ∈ ((cfg0.win 5).blk t).view.set := by
  have hi0 : (i 0).val < 800000 := (i 0).isLt
  have hi1 : (i 1).val < 64 := (i 1).isLt
  have hlt : (i 0).val / 20000 < cfg0.N := by show (i 0).val / 20000 < 40; omega
  obtain ⟨-, -, -, -, -, -, -, -, -, -, e50, e51⟩ := idx_facts ⟨(i 0).val / 20000, hlt⟩
  have e50' : win0_5.index ⟨(i 0).val / 20000, hlt⟩ (0 : Fin 2) = (i 0).val / 20000 := e50
  refine ⟨⟨(i 0).val / 20000, hlt⟩, flush0_5 _, ?_⟩
  rw [mem_blk]
  intro a
  match a with
  | ⟨0, _⟩ =>
    show win0_5.index ⟨(i 0).val / 20000, hlt⟩ (0 : Fin 2) * 20000 ≤ (i 0).val
      ∧ (i 0).val < win0_5.index ⟨(i 0).val / 20000, hlt⟩ (0 : Fin 2) * 20000 + 20000
    omega
  | ⟨1, _⟩ =>
    show win0_5.index ⟨(i 0).val / 20000, hlt⟩ (1 : Fin 2) * 64 ≤ (i 1).val
      ∧ (i 1).val < win0_5.index ⟨(i 0).val / 20000, hlt⟩ (1 : Fin 2) * 64 + 64
    omega

/-- After the launch the output array is `whole` of the arrays the launch finds. -/
theorem final (c : Dev nD) :
    (dat0 V c).arrAt 5 cfg0.N = whole (V c main_v11) (V c main_arg5) (V c main_v12) (V c main_arg7) (V c main_v13) :=
  (dat0 V c).arrAt_eq_of_cover 5 _ (fun t _ => flushed_eq V c t) cover

end Cert.KernelIdeal.Edge

end
-- ==== Proof.NodeValue.lean ====
import proofs.«169572_j48928267436353_1_alg».proof.Proof.Gen.KernelIdeal.Frame
import proofs.«169572_j48928267436353_1_alg».proof.Proof.MlpRow
import Idealize.ShloMosaic.Lib.Pipeline.Value

/-!
  The node perceptron's launch: what its output array holds after the launch, as one function of the arrays the launch
  finds. The grid has 5 points; point t reads rows 10000·t … 10000·t + 9999 of the [50000, 192] input and writes the
  same rows of the [50000, 64] output, and reads both weight matrices and both bias rows whole. The body's result at
  an entry of the block depends on one row of the input block only, so block t of the output is block t of the array
  whose entry (r, q) is the row function of row r of the input. The 5 blocks tile the output, so after the launch it
  is that array.
-/

set_option maxRecDepth 16384

noncomputable section

namespace Cert.KernelIdeal.Node

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The array of 50000 rows whose entry (r, q) is the row function of row r of `h`, the biases given as rows. -/
def whole (h : S50000x192.Idx → EReal) (W1 : S192x64.Idx → EReal) (b1 : S1x64.Idx → EReal)
    (W2 : S64x64.Idx → EReal) (b2 : S1x64.Idx → EReal) : S50000x64.Idx → EReal :=
  fun i => Cert.Mlp.row (fun j => h (ix2 (i 0 : Fin 50000) j)) W1 (fun k => b1 (ix2 (0 : Fin 1) k)) W2
    (fun k => b2 (ix2 (0 : Fin 1) k)) (i 1 : Fin 64)

/-- The block indices at point t: the input and the output move with t along the rows, every other window stays at
    block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's result on a block, read at an entry, is the row function of that entry's row of the input block. -/
theorem pay_apply (x0 : Vec Ideal S10000x192 .f32) (x1 : Vec Ideal S192x64 .f32) (x2 : Vec Ideal S1x64 .f32)
    (x3 : Vec Ideal S64x64 .f32) (x4 : Vec Ideal S1x64 .f32) (y : S10000x64.Idx) :
    k1_pay1 x0 x1 x2 x3 x4 y
      = Cert.Mlp.row (fun j => x0 (ix2 (y 0 : Fin 10000) j)) x1 (fun k => x2 (ix2 (0 : Fin 1) k)) x3
          (fun k => x4 (ix2 (0 : Fin 1) k)) (y 1 : Fin 64) := by
  obtain ⟨p, q, rfl⟩ : ∃ (p : Fin 10000) (q : Fin 64), y = ix2 p q := ⟨y 0, y 1, eq_ix2 y⟩
  exact Cert.Mlp.body_apply (R := 10000) dot_S10000x192_S192x64_S10000x64_1_0_0_1_n_n dot_S10000x64_S64x64_S10000x64_1_0_0_1_n_n
    shapeCasts_S10000x192_S10000x192 shapeCasts_S1x64_S1x64 broadcasts_S1x64_S10000x64 bitsLt_bf16_f32
    rfl rfl rfl rfl rfl rfl rfl rfl rfl rfl rfl rfl x0 x1 x2 x3 x4 p q

/-- What point t writes back is block t of `whole` of the arrays the launch finds: the input block's row p is row
    10000·t + p of the input array, which is the row of the output entry; the weights and biases are read whole. -/
theorem flushed_eq (c : Dev nD) (t : Fin cfg1.N) :
    (dat1 V c).flushed 5 t = ((cfg1.win 5).blk t).view.read (Elt Ideal)
      (whole (V c main_v18) (V c main_arg9) (V c main_v19) (V c main_arg11) (V c main_v20)) := by
  show (cfg1.win 5).cut (grid1.coords t) ((dat1 V c).after 5 t) = _
  rw [after1_5]
  unfold out1_5
  rw [View.canon_unit_zero hz]
  simp only [View.ld_unit_zero (S := S10000x192) hz, View.ld_unit_zero (S := S192x64) hz,
    View.ld_unit_zero (S := S1x64) hz, View.ld_unit_zero (S := S64x64) hz]
  funext y
  show k1_pay1 (iblk1 V c 0 t) (iblk1 V c 1 t) (iblk1 V c 2 t) (iblk1 V c 3 t) (iblk1 V c 4 t) y
    = whole (V c main_v18) (V c main_arg9) (V c main_v19) (V c main_arg11) (V c main_v20) (((cfg1.win 5).blk t).view.emb y)
  refine (pay_apply (iblk1 V c 0 t) (iblk1 V c 1 t) (iblk1 V c 2 t) (iblk1 V c 3 t) (iblk1 V c 4 t) y).trans ?_
  obtain ⟨e00, e01, e10, e11, e20, e21, e30, e31, e40, e41, e50, e51⟩ := idx_facts t
  unfold whole
  refine Cert.Mlp.row_congr (fun j => ?_) (fun i => ?_) (fun k => ?_) (fun i => ?_) (fun k => ?_) ?_
  · show V c main_v18 (((cfg1.win 0).blk t).view.emb (ix2 (y 0 : Fin 10000) j))
      = V c main_v18 (ix2 (((cfg1.win 5).blk t).view.emb y 0 : Fin 50000) j)
    refine congrArg _ (funext fun a => Fin.ext ?_)
    match a with
    | ⟨0, _⟩ => show win1_0.index t (0 : Fin 2) * 10000 + 1 * (y 0).val = win1_5.index t (0 : Fin 2) * 10000 + 1 * (y 0).val; omega
    | ⟨1, _⟩ => show win1_0.index t (1 : Fin 2) * 192 + 1 * j.val = j.val; omega
  · show V c main_arg9 (((cfg1.win 1).blk t).view.emb i) = V c main_arg9 i
    refine congrArg _ (funext fun a => Fin.ext ?_)
    match a with
    | ⟨0, _⟩ => show win1_1.index t (0 : Fin 2) * 192 + 1 * (i 0).val = (i 0).val; omega
    | ⟨1, _⟩ => show win1_1.index t (1 : Fin 2) * 64 + 1 * (i 1).val = (i 1).val; omega
  · show V c main_v19 (((cfg1.win 2).blk t).view.emb (ix2 (0 : Fin 1) k)) = V c main_v19 (ix2 (0 : Fin 1) k)
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  · show V c main_arg11 (((cfg1.win 3).blk t).view.emb i) = V c main_arg11 i
    refine congrArg _ (funext fun a => Fin.ext ?_)
    match a with
    | ⟨0, _⟩ => show win1_3.index t (0 : Fin 2) * 64 + 1 * (i 0).val = (i 0).val; omega
    | ⟨1, _⟩ => show win1_3.index t (1 : Fin 2) * 64 + 1 * (i 1).val = (i 1).val; omega
  · show V c main_v20 (((cfg1.win 4).blk t).view.emb (ix2 (0 : Fin 1) k)) = V c main_v20 (ix2 (0 : Fin 1) k)
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * k.val = k.val; omega
  · apply Fin.ext
    show (y 1).val = win1_5.index t (1 : Fin 2) * 64 + 1 * (y 1).val
    omega

/-- An index of the output array is in point t's block iff each coordinate is in the block's range on its axis. -/
theorem mem_blk (t : Fin cfg1.N) (i : S50000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v21).slice (win1_5.rect t)).set ↔ _
  rw [View.set_slice_whole, Rect.mem_set_unit]
  exact Iff.rfl

/-- Row r of the output is in the block of point r / 10000. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hlt : (i 0).val / 10000 < cfg1.N := by show (i 0).val / 10000 < 5; omega
  obtain ⟨-, -, -, -, -, -, -, -, -, -, e50, e51⟩ := idx_facts ⟨(i 0).val / 10000, hlt⟩
  have e50' : win1_5.index ⟨(i 0).val / 10000, hlt⟩ (0 : Fin 2) = (i 0).val / 10000 := e50
  refine ⟨⟨(i 0).val / 10000, hlt⟩, flush1_5 _, ?_⟩
  rw [mem_blk]
  intro a
  match a with
  | ⟨0, _⟩ =>
    show win1_5.index ⟨(i 0).val / 10000, hlt⟩ (0 : Fin 2) * 10000 ≤ (i 0).val
      ∧ (i 0).val < win1_5.index ⟨(i 0).val / 10000, hlt⟩ (0 : Fin 2) * 10000 + 10000
    omega
  | ⟨1, _⟩ =>
    show win1_5.index ⟨(i 0).val / 10000, hlt⟩ (1 : Fin 2) * 64 ≤ (i 1).val
      ∧ (i 1).val < win1_5.index ⟨(i 0).val / 10000, hlt⟩ (1 : Fin 2) * 64 + 64
    omega

/-- After the launch the output array is `whole` of the arrays the launch finds. -/
theorem final (c : Dev nD) :
    (dat1 V c).arrAt 5 cfg1.N = whole (V c main_v18) (V c main_arg9) (V c main_v19) (V c main_arg11) (V c main_v20) :=
  (dat1 V c).arrAt_eq_of_cover 5 _ (fun t _ => flushed_eq V c t) cover

end Cert.KernelIdeal.Node

end
-- ==== Proof.KernelValue.lean ====
import proofs.«169572_j48928267436353_1_alg».proof.Proof.Gen.KernelIdeal.Frame
import proofs.«169572_j48928267436353_1_alg».proof.Proof.KernelRun
import proofs.«169572_j48928267436353_1_alg».proof.Proof.EdgeValue
import proofs.«169572_j48928267436353_1_alg».proof.Proof.NodeValue
import Idealize.ShloMosaic.Lib.StableHlo.Run

/-!
  The idealized kernel's result as one term of its arguments. Before the first launch the host gathers each edge's
  sender row of the node features and sets it beside the edge's attribute row; the first launch applies the edge
  perceptron to those 800000 rows; between the launches the host adds each edge's message into its receiver's row of a
  zero array and sets the sums beside the node features; the second launch applies the node perceptron to those 50000
  rows. Each launch's output is the whole-array function of the arrays it finds, and what it finds is read through the
  host operations before it.
-/

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo

/-- The edge perceptron's input: row e is the sender's feature row (a negative sender index counted from the end)
    followed by edge e's attribute row. -/
def edgeIn (a0 : (⟨S50000x128, .f32⟩ : BufTy).Contents (Elt Ideal)) (a1 : (⟨S2x800000, .i32⟩ : BufTy).Contents (Elt Ideal)) (a2 : (⟨S800000x64, .f32⟩ : BufTy).Contents (Elt Ideal)) :
    (⟨S800000x192, .f32⟩ : BufTy).Contents (Elt Ideal) :=
  (concatenate S800000x192 1 [⟨S800000x128, (Host.gather gather_S50000x128_S800000x1_S800000x128_1_0_n_n_0_1_1128 a0 (broadcastInDim S800000x1 ![0] bcast_S800000_S800000x1_0 (select (cmpi .slt (shapeCast _ (extractStridedSlice S1x800000 ![0, 0] a1 slices_S2x800000_S1x800000_0_0) shapeCasts_S1x800000_S800000) (broadcastInDim S800000 ![] bcast_S_S800000 (constantI S_ 32 0#32))) (addi (shapeCast _ (extractStridedSlice S1x800000 ![0, 0] a1 slices_S2x800000_S1x800000_0_0) shapeCasts_S1x800000_S800000) (broadcastInDim S800000 ![] bcast_S_S800000 (constantI S_ 32 50000#32))) (shapeCast _ (extractStridedSlice S1x800000 ![0, 0] a1 slices_S2x800000_S1x800000_0_0) shapeCasts_S1x800000_S800000))))⟩, ⟨S800000x64, a2⟩] concatenates_S800000x128_S800000x64_S800000x192_d1)

/-- The receivers: row 1 of the edge index. -/
def recv (a1 : (⟨S2x800000, .i32⟩ : BufTy).Contents (Elt Ideal)) : (⟨S800000, .i32⟩ : BufTy).Contents (Elt Ideal) :=
  (shapeCast _ (extractStridedSlice S1x800000 ![1, 0] a1 slices_S2x800000_S1x800000_1_0) shapeCasts_S1x800000_S800000)

/-- The node perceptron's input: row n is node n's feature row followed by the sum of the messages of the edges
    received at n. -/
def nodeIn (a0 : (⟨S50000x128, .f32⟩ : BufTy).Contents (Elt Ideal)) (r : (⟨S800000, .i32⟩ : BufTy).Contents (Elt Ideal))
    (msg : (⟨S800000x64, .f32⟩ : BufTy).Contents (Elt Ideal)) : (⟨S50000x192, .f32⟩ : BufTy).Contents (Elt Ideal) :=
  concatenate S50000x192 1 [⟨S50000x128, a0⟩, ⟨S50000x64, (Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 r) msg)⟩] concatenates_S50000x128_S50000x64_S50000x192_d1

variable (m : (ℓ : Loc nD τ sig) → Buf (Elt Ideal) ℓ) (ρ : Dev nD → PrngReg)

/-! ## What the first launch finds -/

theorem entry0_in (c : Dev nD) : V1 m ρ c main_v11 = edgeIn (m ((c : Thread nD τ).loc main_arg0)) (m ((c : Thread nD τ).loc main_arg1)) (m ((c : Thread nD τ).loc main_arg2)) := by
  show StableHlo.after hostOps0 (W0 m ρ c) (Proc.devRef .tc main_v11) = _
  after_results; rfl
theorem entry0_W1 (c : Dev nD) : V1 m ρ c main_arg5 = (m ((c : Thread nD τ).loc main_arg5)) := by
  show StableHlo.after hostOps0 (W0 m ρ c) (Proc.devRef .tc main_arg5) = _
  after_results
theorem entry0_b1 (c : Dev nD) : V1 m ρ c main_v12 = shapeCast S1x64 (m ((c : Thread nD τ).loc main_arg6)) shapeCasts_S64_S1x64 := by
  show StableHlo.after hostOps0 (W0 m ρ c) (Proc.devRef .tc main_v12) = _
  after_results; rfl
theorem entry0_W2 (c : Dev nD) : V1 m ρ c main_arg7 = (m ((c : Thread nD τ).loc main_arg7)) := by
  show StableHlo.after hostOps0 (W0 m ρ c) (Proc.devRef .tc main_arg7) = _
  after_results
theorem entry0_b2 (c : Dev nD) : V1 m ρ c main_v13 = shapeCast S1x64 (m ((c : Thread nD τ).loc main_arg8)) shapeCasts_S64_S1x64 := by
  show StableHlo.after hostOps0 (W0 m ρ c) (Proc.devRef .tc main_v13) = _
  after_results; rfl

/-- The edge messages: the first launch's output array. -/
def msgs (c : Dev nD) : (⟨S800000x64, .f32⟩ : BufTy).Contents (Elt Ideal) :=
  Edge.whole (edgeIn (m ((c : Thread nD τ).loc main_arg0)) (m ((c : Thread nD τ).loc main_arg1)) (m ((c : Thread nD τ).loc main_arg2))) (m ((c : Thread nD τ).loc main_arg5)) (shapeCast S1x64 (m ((c : Thread nD τ).loc main_arg6)) shapeCasts_S64_S1x64)
    (m ((c : Thread nD τ).loc main_arg7)) (shapeCast S1x64 (m ((c : Thread nD τ).loc main_arg8)) shapeCasts_S64_S1x64)

/-- After the first launch its output array holds the edge messages. -/
theorem W2_msgs (c : Dev nD) : W2 m ρ c (Proc.devRef .tc main_v14) = msgs m c := by
  refine (W2_arr m ρ c 5).trans ((Edge.final (V1 m ρ) c).trans ?_)
  rw [entry0_in, entry0_W1, entry0_b1, entry0_W2, entry0_b2]
  rfl

/-! ## What the second launch finds -/

/-- Argument 0 is written by no host operation before the first launch and is no array of it. -/
theorem W2_arg0 (c : Dev nD) : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  after_results
/-- Argument 9 is written by no host operation before the first launch and is no array of it. -/
theorem W2_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results
/-- Argument 10 is written by no host operation before the first launch and is no array of it. -/
theorem W2_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results
/-- Argument 11 is written by no host operation before the first launch and is no array of it. -/
theorem W2_arg11 (c : Dev nD) : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  after_results
/-- Argument 12 is written by no host operation before the first launch and is no array of it. -/
theorem W2_arg12 (c : Dev nD) : W2 m ρ c (Proc.devRef .tc main_arg12) = m ((c : Thread nD τ).loc main_arg12) := by
  refine (W2_of_ne m ρ c main_arg12 (by decide)).trans ?_
  show StableHlo.after hostOps0 (W0 m ρ c) (Proc.devRef .tc main_arg12) = _
  after_results

/-- The receivers are computed before the first launch, which does not touch them. -/
theorem W2_recv (c : Dev nD) : W2 m ρ c (Proc.devRef .tc main_v3) = recv (m ((c : Thread nD τ).loc main_arg1)) := by
  refine (W2_of_ne m ρ c main_v3 (by decide)).trans ?_
  show StableHlo.after hostOps0 (W0 m ρ c) (Proc.devRef .tc main_v3) = _
  after_results; rfl

theorem entry1_in (c : Dev nD) : V3 m ρ c main_v18 = nodeIn (m ((c : Thread nD τ).loc main_arg0)) (recv (m ((c : Thread nD τ).loc main_arg1))) (msgs m c) := by
  show StableHlo.after hostOps1 (W2 m ρ c) (Proc.devRef .tc main_v18) = _
  after_results
  rw [W2_arg0, W2_recv, W2_msgs]
  rfl
theorem entry1_W1 (c : Dev nD) : V3 m ρ c main_arg9 = (m ((c : Thread nD τ).loc main_arg9)) := by
  show StableHlo.after hostOps1 (W2 m ρ c) (Proc.devRef .tc main_arg9) = _
  after_results
  exact W2_arg9 m ρ c
theorem entry1_b1 (c : Dev nD) : V3 m ρ c main_v19 = shapeCast S1x64 (m ((c : Thread nD τ).loc main_arg10)) shapeCasts_S64_S1x64 := by
  show StableHlo.after hostOps1 (W2 m ρ c) (Proc.devRef .tc main_v19) = _
  after_results
  rw [W2_arg10]
  rfl
theorem entry1_W2 (c : Dev nD) : V3 m ρ c main_arg11 = (m ((c : Thread nD τ).loc main_arg11)) := by
  show StableHlo.after hostOps1 (W2 m ρ c) (Proc.devRef .tc main_arg11) = _
  after_results
  exact W2_arg11 m ρ c
theorem entry1_b2 (c : Dev nD) : V3 m ρ c main_v20 = shapeCast S1x64 (m ((c : Thread nD τ).loc main_arg12)) shapeCasts_S64_S1x64 := by
  show StableHlo.after hostOps1 (W2 m ρ c) (Proc.devRef .tc main_v20) = _
  after_results
  rw [W2_arg12]
  rfl

/-! ## The result -/

/-- The kernel's result: the node perceptron of the node features beside the summed edge messages. -/
def result (c : Dev nD) : (⟨S50000x64, .f32⟩ : BufTy).Contents (Elt Ideal) :=
  Node.whole (nodeIn (m ((c : Thread nD τ).loc main_arg0)) (recv (m ((c : Thread nD τ).loc main_arg1))) (msgs m c)) (m ((c : Thread nD τ).loc main_arg9)) (shapeCast S1x64 (m ((c : Thread nD τ).loc main_arg10)) shapeCasts_S64_S1x64)
    (m ((c : Thread nD τ).loc main_arg11)) (shapeCast S1x64 (m ((c : Thread nD τ).loc main_arg12)) shapeCasts_S64_S1x64)

/-- The last boundary's contents at the result array. -/
theorem W4_result (c : Dev nD) : W4 m ρ c (Proc.devRef .tc main_v21) = result m c := by
  refine (W4_arr m ρ c 5).trans ((Node.final (V3 m ρ) c).trans ?_)
  rw [entry1_in, entry1_W1, entry1_b1, entry1_W2, entry1_b2]
  rfl

/-- Every weakly fair execution of the idealized kernel ends with the result array at `result` and the arguments
    as launched. -/
theorem run : θ_run defs (onTc (τ := τ) (main (F := Ideal))) ⟨m, fun _ => 0, ρ⟩ (fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (W4_result m ρ c), (h c).2⟩) (Cert.KernelIdeal.Run.run_result m ρ)

end Cert.KernelIdeal.Result

end
-- ==== Proof.Bridge.lean ====
import proofs.«169572_j48928267436353_1_alg».proof.Proof.KernelValue
import proofs.«169572_j48928267436353_1_alg».proof.Proof.MlpRow
import proofs.«169572_j48928267436353_1_alg».proof.Proof.Gen.ReferenceIdeal.Run
import Idealize.ShloMosaic.Lib.Pipeline.Value

/-!
  Each launch's whole-array function is the host's two-layer composition. Both read the same row function at every
  entry: the kernel receives each bias as a row of shape [1, 64], made from the 64 entries by a change of shape, and
  that row's entry (0, k) is entry k; the host broadcasts the 64 entries along the rows directly.
-/

noncomputable section

namespace Cert.Bridge

open Idealize.ShloMosaic Idealize.ShloMosaic.ValueIdx

/-- A vector of 64 entries made a row of shape [1, 64], read at (0, k), is entry k. -/
theorem bias_row (b : (⟨1, ![64]⟩ : Shape).Idx → EReal) (h : (⟨1, ![64]⟩ : Shape).ShapeCasts ⟨2, ![1, 64]⟩) (k : Fin 64) :
    shapeCast ⟨2, ![1, 64]⟩ b h (ix2 (0 : Fin 1) k) = b (ix1 k) :=
  shapeCast_apply b h (ix2 (0 : Fin 1) k) (ix1 k) (by
    rewrite [Shape.rowMajor_val_two, Shape.rowMajor_val_one]
    show k.val = 0 * 64 + k.val
    omega)

/-- The edge launch's array is the host's composition on the 800000 edge rows. -/
theorem edge (X : Cert.KernelIdeal.S800000x192.Idx → EReal) (W1 : Cert.KernelIdeal.S192x64.Idx → EReal) (b1 : Cert.KernelIdeal.S64.Idx → EReal)
    (W2 : Cert.KernelIdeal.S64x64.Idx → EReal) (b2 : Cert.KernelIdeal.S64.Idx → EReal) :
    Cert.KernelIdeal.Edge.whole X W1 (shapeCast Cert.KernelIdeal.S1x64 b1 Cert.KernelIdeal.Gen.shapeCasts_S64_S1x64) W2
        (shapeCast Cert.KernelIdeal.S1x64 b2 Cert.KernelIdeal.Gen.shapeCasts_S64_S1x64)
      = Cert.Mlp.host (M := 800000) Cert.ReferenceIdeal.dot_S800000x192_S192x64_S800000x64_1_0_0_1_n_n Cert.ReferenceIdeal.dot_S800000x64_S64x64_S800000x64_1_0_0_1_n_n
          Cert.ReferenceIdeal.Gen.bcast_S64_S1x64_1 Cert.ReferenceIdeal.Gen.bcast_S1x64_S800000x64_0_1 Cert.ReferenceIdeal.Gen.bcast_S_S800000x64 X W1 b1 W2 b2 := by
  funext i
  obtain ⟨p, q, rfl⟩ : ∃ (p : Fin 800000) (q : Fin 64), i = ix2 p q := ⟨i 0, i 1, eq_ix2 i⟩
  refine Eq.trans ?_ (Cert.Mlp.host_apply _ _ _ _ _ rfl rfl rfl rfl rfl rfl rfl rfl rfl rfl rfl rfl X W1 b1 W2 b2 p q).symm
  unfold Cert.KernelIdeal.Edge.whole
  exact Cert.Mlp.row_congr (fun _ => rfl) (fun _ => rfl) (fun k => bias_row b1 _ k) (fun _ => rfl) (fun k => bias_row b2 _ k) rfl

/-- The node launch's array is the host's composition on the 50000 node rows. -/
theorem node (X : Cert.KernelIdeal.S50000x192.Idx → EReal) (W1 : Cert.KernelIdeal.S192x64.Idx → EReal) (b1 : Cert.KernelIdeal.S64.Idx → EReal)
    (W2 : Cert.KernelIdeal.S64x64.Idx → EReal) (b2 : Cert.KernelIdeal.S64.Idx → EReal) :
    Cert.KernelIdeal.Node.whole X W1 (shapeCast Cert.KernelIdeal.S1x64 b1 Cert.KernelIdeal.Gen.shapeCasts_S64_S1x64) W2
        (shapeCast Cert.KernelIdeal.S1x64 b2 Cert.KernelIdeal.Gen.shapeCasts_S64_S1x64)
      = Cert.Mlp.host (M := 50000) Cert.ReferenceIdeal.dot_S50000x192_S192x64_S50000x64_1_0_0_1_n_n Cert.ReferenceIdeal.dot_S50000x64_S64x64_S50000x64_1_0_0_1_n_n
          Cert.ReferenceIdeal.Gen.bcast_S64_S1x64_1 Cert.ReferenceIdeal.Gen.bcast_S1x64_S50000x64_0_1 Cert.ReferenceIdeal.Gen.bcast_S_S50000x64 X W1 b1 W2 b2 := by
  funext i
  obtain ⟨p, q, rfl⟩ : ∃ (p : Fin 50000) (q : Fin 64), i = ix2 p q := ⟨i 0, i 1, eq_ix2 i⟩
  refine Eq.trans ?_ (Cert.Mlp.host_apply _ _ _ _ _ rfl rfl rfl rfl rfl rfl rfl rfl rfl rfl rfl rfl X W1 b1 W2 b2 p q).symm
  unfold Cert.KernelIdeal.Node.whole
  exact Cert.Mlp.row_congr (fun _ => rfl) (fun _ => rfl) (fun k => bias_row b1 _ k) (fun _ => rfl) (fun k => bias_row b2 _ k) rfl

end Cert.Bridge

end
-- ==== Proof.lean ====
import proofs.«169572_j48928267436353_1_alg».proof.Defs
import proofs.«169572_j48928267436353_1_alg».proof.Proof.Gen.Kernel
import proofs.«169572_j48928267436353_1_alg».proof.Proof.Gen.Kernel.Frame
import proofs.«169572_j48928267436353_1_alg».proof.Proof.Gen.KernelIdeal
import proofs.«169572_j48928267436353_1_alg».proof.Proof.Gen.KernelIdeal.Frame
import proofs.«169572_j48928267436353_1_alg».proof.Proof.Gen.ReferenceIdeal
import proofs.«169572_j48928267436353_1_alg».proof.Proof.Gen.Pre_finite_inputs
import proofs.«169572_j48928267436353_1_alg».proof.Proof.Gen.ReferenceIdeal.Run
import proofs.«169572_j48928267436353_1_alg».proof.Proof.KernelValue
import proofs.«169572_j48928267436353_1_alg».proof.Proof.Bridge

/-!
  A message-passing layer over 50000 nodes and 800000 edges: each edge's message is a two-layer perceptron with
  rectified layers of its sender's 128 features beside its own 64 attributes; each node sums the messages it receives;
  the node's output is a second such perceptron of its 128 features beside that sum.

  The kernel runs both perceptrons as tiled launches (blocks of 20000 edge rows, then of 10000 node rows) whose matrix
  products go into a zero accumulator with operands passed through a narrower float format; the reference runs them as
  whole-array matrix products. Gathering the sender rows, joining the columns and summing into the receivers are the
  same host operations in both programs. On the extended reals a change of float format is the identity and both kinds of
  matrix product are the plain sum over the contracted axis, so each launch's output array and the host's composition
  read one row function at every entry, and the two results are one term of the arguments. No law that needs finite
  values is used, only that both sides are built from the same sums and maxima.
-/

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the node perceptron of the node features beside the summed edge
    messages: the kernel's launches by their whole-array functions, the reference by its run, and each launch's function
    is the host's composition. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [e0, e1, e2, e5, e6, e7, e8, e9, e10, e11, e12]
  show _ = Cert.KernelIdeal.Result.result m c
  unfold Cert.KernelIdeal.Result.result Cert.KernelIdeal.Result.msgs
  rw [Cert.Bridge.node, Cert.Bridge.edge]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
